-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58_1)) (v1 : (c : Dev Cert.KernelIdeal.nD) → Buf (Elt Ideal) ((c.tc : Thread Cert.KernelIdeal.nD Cert.KernelIdeal.τ).loc Cert.KernelIdeal.main_v58_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_1) = v0 c
          ∧ r.2.mem ((c.tc : Thread Cert.KernelIdeal.nD Cert.KernelIdeal.τ).loc Cert.KernelIdeal.main_v58_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S32x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x32 : Shape := ⟨2, ![2000, 32]⟩
abbrev S2000x128 : Shape := ⟨2, ![2000, 128]⟩
abbrev S1700000x128 : Shape := ⟨2, ![1700000, 128]⟩
abbrev S1x128 : Shape := ⟨2, ![1, 128]⟩
abbrev S100000x2 : Shape := ⟨2, ![100000, 2]⟩
abbrev S2000x2 : Shape := ⟨2, ![2000, 2]⟩
abbrev S1x2 : Shape := ⟨2, ![1, 2]⟩

abbrev nBuf : Space → Nat
  | .hbm => 84
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S100000x128, .f32⟩
  | .hbm, ⟨83, _⟩ => ⟨S100000x2, .f32⟩
  | .local _ .vmem, ⟨0, _⟩ => ⟨S2000x32, .f32⟩
  | .local _ .vmem, ⟨1, _⟩ => ⟨S2000x32, .f32⟩
  | .local _ .vmem, ⟨2, _⟩ => ⟨S32x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128, .f32⟩
  | .local _ .vmem, ⟨14, _⟩ => ⟨S128x2, .f32⟩
  | .local _ .vmem, ⟨15, _⟩ => ⟨S2, .f32⟩
  | .local _ .vmem, ⟨16, _⟩ => ⟨S2000x128, .f32⟩
  | .local _ .vmem, ⟨17, _⟩ => ⟨S2000x128, .f32⟩
  | .local _ .vmem, ⟨18, _⟩ => ⟨S2000x2, .f32⟩
  | .local _ .vmem, ⟨19, _⟩ => ⟨S2000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58_0 : Ref sig .tc := ⟨.hbm, 82, rfl⟩
abbrev main_v58_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x32_S32x128_S2000x128_1_0_0_1_n_n_wf : DotDims.WF S2000x32 S32x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2.size a ≤ S2.size a
  hwx2_3 : ∀ i : grid2.Coords, EltTy.bits .f32 = 32 ∨ (Rect.block (s := S2) S2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x2.size a ≤ S100000x2.size a
  hwx2_5 : ∀ i : grid2.Coords, EltTy.bits .f32 = 32 ∨ (Rect.block (s := S100000x2) S2000x2.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v58_1) S2000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 98
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x2, .f32⟩
  | .hbm, ⟨95, _⟩ => ⟨S1x2, .f32⟩
  | .hbm, ⟨96, _⟩ => ⟨S100000x2, .f32⟩
  | .hbm, ⟨97, _⟩ => ⟨S100000x2, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x128_S100000x128_1_0_0_1_n_n_wf : DotDims.WF S100000x32 S32x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Spec.lean ====
/-
  The dense stages of the two-layer graph convolution, as whole-array functions over the extended
  reals, index by index. Nothing here mentions a program: both the tiled kernels and the plain
  reference are later shown to compute exactly these functions.

  * `lin1 x w`      — the [100000, 32] × [32, 128] product: entry (r, c) is Σ_k x[r, k] · w[k, c];
  * `lin2 h w`      — the [100000, 128] × [128, 128] product, same formula over 128 terms;
  * `biasRelu a b`  — a row-broadcast bias followed by the rectifier: max (a[r, c] + b[c]) 0;
  * `head e w b`    — the classifier: Σ_k e[r, k] · w[k, c] + b[c] over [100000, 2].

  A row-tiled kernel computes rows 2000·t … 2000·t + 1999 of these at grid point t; since every
  formula above reads only row r of its first operand, the tiles are restrictions of the one function.
-/
import Idealize.ShloMosaic.PureOps.Ideal
import Idealize.ShloMosaic.Lib.ValueIdx

noncomputable section

open scoped BigOperators
open Idealize.ShloMosaic Idealize.ShloMosaic.ValueIdx

namespace Cert.Gcn

/-- The first layer's linear map `x · W1`: entry (r, c) is the sum over the 32 features of
    `x[r, k] · w[k, c]`. -/
def lin1 (x : FVec Ideal ⟨2, ![100000, 32]⟩ .f32) (w : FVec Ideal ⟨2, ![32, 128]⟩ .f32) :
    FVec Ideal ⟨2, ![100000, 128]⟩ .f32 :=
  fun i => ∑ k : Fin 32, x (ix2 (i 0) k) * w (ix2 k (i 1))

/-- The second layer's linear map `h · W2`: entry (r, c) is the sum over the 128 hidden units of
    `h[r, k] · w[k, c]`. -/
def lin2 (h : FVec Ideal ⟨2, ![100000, 128]⟩ .f32) (w : FVec Ideal ⟨2, ![128, 128]⟩ .f32) :
    FVec Ideal ⟨2, ![100000, 128]⟩ .f32 :=
  fun i => ∑ k : Fin 128, h (ix2 (i 0) k) * w (ix2 k (i 1))

/-- Bias along the columns, then the rectifier: entry (r, c) is `max (a[r, c] + b[c]) 0`. -/
def biasRelu (a : FVec Ideal ⟨2, ![100000, 128]⟩ .f32) (b : FVec Ideal ⟨1, ![128]⟩ .f32) :
    FVec Ideal ⟨2, ![100000, 128]⟩ .f32 :=
  fun i => max (a i + b (ix1 (i 1))) (Ideal.ofBits .f32 0x00000000#32)

/-- The classifier head `e · Wc + bc`: entry (r, c) is the sum over the 128 hidden units of
    `e[r, k] · w[k, c]`, plus `b[c]`. -/
def head (e : FVec Ideal ⟨2, ![100000, 128]⟩ .f32) (w : FVec Ideal ⟨2, ![128, 2]⟩ .f32)
    (b : FVec Ideal ⟨1, ![2]⟩ .f32) : FVec Ideal ⟨2, ![100000, 2]⟩ .f32 :=
  fun i => (∑ k : Fin 128, e (ix2 (i 0) k) * w (ix2 k (i 1))) + b (ix1 (i 1))

end Cert.Gcn

end
-- ==== Proof.Stage1.lean ====
/-
  The first dense stage, `x · W1`, as the row-tiled kernel computes it.

  The grid has 50 points; point t stages rows 2000·t … 2000·t + 1999 of `x` (all 32 columns) and the
  whole of `W1`, multiplies them into a zero accumulator and writes the [2000, 128] product back as
  rows 2000·t … of the result. At the extended reals the narrowing of both factors is the identity and
  a product into a zero accumulator is the plain sum over the 32 shared coordinates, so the tile's
  entry (p, q) is Σ_k x[2000·t + p, k] · W1[k, q]: entry (2000·t + p, q) of `Cert.Gcn.lin1 x W1`.
  The 50 tiles are disjoint and cover every row, so the result array is `lin1 x W1` whole.

  Everything is stated at an arbitrary valuation `V` of the buffers at the region's entry.
-/
import proofs.«110515_j61572651155681_1_alg».proof.Proof.Gen.KernelIdeal.Frame
import proofs.«110515_j61572651155681_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen Cert.Gcn

variable (V : (c : Dev nD) → (b : Ref sig .tc) → Buf (Elt Ideal) ((c : Thread nD τ).loc b))

theorem zero_offsets : (![0, 0] : Fin 2 → Nat) = fun _ => 0 := funext fun a => by fin_cases a <;> rfl

/-! ## The tile's product, entry by entry -/

/-- The left factor's row coordinate is the output's row. -/
theorem lhs_row (j : S2000x128.Idx) (q : dot_S2000x32_S32x128_S2000x128_1_0_0_1_n_n.contr.Idx) :
    (dot_S2000x32_S32x128_S2000x128_1_0_0_1_n_n.lhsIdx j q 0).val = (j 0).val := by
  unfold DotDims.lhsIdx
  rw [dif_neg (show ¬(0 : Fin S2000x32.rank) ∈ dot_S2000x32_S32x128_S2000x128_1_0_0_1_n_n.lhsBatch by decide), dif_pos (show (0 : Fin S2000x32.rank) ∈ dot_S2000x32_S32x128_S2000x128_1_0_0_1_n_n.lhsNonContracting by decide)]
  rfl
/-- The left factor's column coordinate is the summation index. -/
theorem lhs_col (j : S2000x128.Idx) (q : dot_S2000x32_S32x128_S2000x128_1_0_0_1_n_n.contr.Idx) :
    (dot_S2000x32_S32x128_S2000x128_1_0_0_1_n_n.lhsIdx j q 1).val = (q ⟨0, by decide⟩).val :=
  dot_S2000x32_S32x128_S2000x128_1_0_0_1_n_n.lhsIdx_val_of_single rfl j q
/-- The right factor's row coordinate is the summation index. -/
theorem rhs_row (j : S2000x128.Idx) (q : dot_S2000x32_S32x128_S2000x128_1_0_0_1_n_n.contr.Idx) :
    (dot_S2000x32_S32x128_S2000x128_1_0_0_1_n_n.rhsIdx j q 0).val = (q ⟨0, by decide⟩).val :=
  dot_S2000x32_S32x128_S2000x128_1_0_0_1_n_n.rhsIdx_val_of_single rfl j q
/-- The right factor's column coordinate is the output's column. -/
theorem rhs_col (j : S2000x128.Idx) (q : dot_S2000x32_S32x128_S2000x128_1_0_0_1_n_n.contr.Idx) :
    (dot_S2000x32_S32x128_S2000x128_1_0_0_1_n_n.rhsIdx j q 1).val = (j 1).val := by
  unfold DotDims.rhsIdx
  rw [dif_neg (show ¬(1 : Fin S32x128.rank) ∈ dot_S2000x32_S32x128_S2000x128_1_0_0_1_n_n.rhsBatch by decide), dif_pos (show (1 : Fin S32x128.rank) ∈ dot_S2000x32_S32x128_S2000x128_1_0_0_1_n_n.rhsNonContracting by decide)]
  rfl

/-- Entry `j` of the tile the body stores: the sum over the 32 shared coordinates of the staged row of
    `x` against the staged column of `W1` (narrowing is the identity; the accumulator starts at zero). -/
theorem tile_apply (xb : Vec Ideal S2000x32 .f32) (wb : Vec Ideal S32x128 .f32) (j : S2000x128.Idx) :
    k0_pay1 xb wb j = ∑ k : Fin 32, xb (ix2 (j 0) k) * wb (ix2 k (j 1)) := by
  unfold k0_pay1
  refine (Ideal.matmul_constant_zero_apply dot_S2000x32_S32x128_S2000x128_1_0_0_1_n_n none _ _ j).trans ?_
  rw [← Equiv.sum_comp (contrEquiv1 dot_S2000x32_S32x128_S2000x128_1_0_0_1_n_n 32 rfl rfl).symm]
  refine Finset.sum_congr rfl fun k _ => ?_
  have hk := contrEquiv1_symm_val dot_S2000x32_S32x128_S2000x128_1_0_0_1_n_n 32 rfl rfl k
  have el : dot_S2000x32_S32x128_S2000x128_1_0_0_1_n_n.lhsIdx j ((contrEquiv1 dot_S2000x32_S32x128_S2000x128_1_0_0_1_n_n 32 rfl rfl).symm k) = ix2 (j 0) k := funext fun a => Fin.ext (by
    match a with
    | ⟨0, _⟩ => exact lhs_row _ _
    | ⟨1, _⟩ => exact (lhs_col _ _).trans hk)
  have er : dot_S2000x32_S32x128_S2000x128_1_0_0_1_n_n.rhsIdx j ((contrEquiv1 dot_S2000x32_S32x128_S2000x128_1_0_0_1_n_n 32 rfl rfl).symm k) = ix2 k (j 1) := funext fun a => Fin.ext (by
    match a with
    | ⟨0, _⟩ => exact (rhs_row _ _).trans hk
    | ⟨1, _⟩ => exact rhs_col _ _)
  rw [el, er]
  rfl

/-- A tile whose staged rows are rows of `x` (`hx`) and whose staged matrix is `w` (`hw`) holds, at its
    local entry `y`, the entry `g` of `lin1 x w` that lies on that row and column. -/
theorem tile_eq (x : FVec Ideal S100000x32 .f32) (w : FVec Ideal S32x128 .f32)
    (xb : Vec Ideal S2000x32 .f32) (wb : Vec Ideal S32x128 .f32) (y : S2000x128.Idx) (g : S100000x128.Idx)
    (hx : ∀ k : Fin 32, xb (ix2 (y 0) k) = x (ix2 (g 0) k))
    (hw : ∀ k : Fin 32, wb (ix2 k (y 1)) = w (ix2 k (g 1))) :
    k0_pay1 xb wb y = lin1 x w g := by
  rw [tile_apply]
  unfold lin1
  exact Finset.sum_congr rfl fun k _ => by rw [hx k, hw k]

/-! ## From tiles to the array -/

/-- The printed index maps over the 50 grid points: the rows window and the result window sit at block row `t`,
    block column 0; the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `lin1 x W1`, `x` and `W1` as the region finds them. -/
theorem flushed_eq (c : Dev nD) (t : Fin cfg0.N) :
    (dat0 V c).flushed 2 t = ((cfg0.win 2).blk t).view.read (Elt Ideal) (lin1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x32) zero_offsets, View.ld_unit_zero (S := S32x128) zero_offsets]
  obtain ⟨e0, e1, e2, e3, e4, e5⟩ := idx_facts t
  funext y
  show k0_pay1 (iblk0 V c 0 t) (iblk0 V c 1 t) y = lin1 (V c main_arg0) (V c main_arg2) (((cfg0.win 2).blk t).view.emb y)
  refine tile_eq (V c main_arg0) (V c main_arg2) _ _ y _ (fun k => ?_) (fun k => ?_)
  · show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 32 + 1 * k.val = k.val; omega
  · show V c main_arg2 (((cfg0.win 1).blk t).view.emb (ix2 k (y 1))) = V c main_arg2 (ix2 k ((((cfg0.win 2).blk t).view.emb y) 1))
    refine congrArg (V c main_arg2) (funext fun a => Fin.ext ?_)
    match a with
    | ⟨0, _⟩ => show win0_1.index t (0 : Fin 2) * 32 + 1 * k.val = k.val; omega
    | ⟨1, _⟩ => show win0_1.index t (1 : Fin 2) * 128 + 1 * (y 1).val = win0_2.index t (1 : Fin 2) * 128 + 1 * (y 1).val; omega

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row `r` of the result lies in the block of point `r / 2000`: the 50 blocks cover the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  refine ⟨⟨(i 0).val / 2000, ht⟩, flush0_2 _, ?_⟩
  rw [mem_blk]
  obtain ⟨-, -, -, -, e4, e5⟩ := idx_facts ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

/-- THE RESULT ARRAY after the region: `lin1 x W1`, whole. -/
theorem final (c : Dev nD) : (dat0 V c).arrAt 2 cfg0.N = lin1 (V c main_arg0) (V c main_arg2) :=
  (dat0 V c).arrAt_eq_of_cover 2 _ (fun t _ => flushed_eq V c t) cover

end Cert.KernelIdeal.Stage1

end
-- ==== Proof.TileAct.lean ====
/-
  Bias and rectifier on one tile. Both later kernels begin the same way: the staged [2000, 128] tile
  `a` has the staged bias row `b` (a [128] vector viewed as [1, 128] and repeated down the 2000 rows)
  added to it, and the sum is clamped below at zero. Entry (p, q) of the result is therefore
  `max (a[p, q] + b[q]) 0`; the reshapes only rename indices.
-/
import proofs.«110515_j61572651155681_1_alg».proof.Proof.Gen.KernelIdeal
import Idealize.ShloMosaic.Lib.Pipeline.Value
import Idealize.ShloMosaic.Lib.ValueIdx

noncomputable section

open Idealize.ShloMosaic Idealize.ShloMosaic.TcCoe Idealize.ShloMosaic.ValueIdx

namespace Cert.KernelIdeal.TileAct

open Cert.KernelIdeal Cert.KernelIdeal.Gen

/-- The bias row, viewed as [1, 128] and repeated down the rows, read at (p, q): `b[q]`. -/
theorem bias_apply (b : Vec Ideal S128 .f32) (j : S2000x128.Idx) :
    broadcastTo S2000x128 (shapeCast S1x128 b shapeCasts_S128_S1x128) broadcasts_S1x128_S2000x128 j = b (ix1 (j 1)) := by
  rw [broadcastTo_apply (shapeCast S1x128 b shapeCasts_S128_S1x128) broadcasts_S1x128_S2000x128 j (ix2 (0 : Fin 1) (j 1))
    (fun a => by match a with | ⟨0, _⟩ => rfl | ⟨1, _⟩ => rfl)]
  rw [shapeCast_addUnit_apply ![128] b shapeCasts_S128_S1x128 (ix2 (0 : Fin 1) (j 1))]
  exact congrArg b (funext fun a => by match a with | ⟨0, _⟩ => rfl)

/-- Entry `j` of the tile after bias and rectifier: `max (a[j] + b[column of j]) 0`. -/
theorem act_apply (a : Vec Ideal S2000x128 .f32) (b : Vec Ideal S128 .f32) (j : S2000x128.Idx) :
    maximumf (addf (shapeCast S2000x128 a shapeCasts_S2000x128_S2000x128)
        (broadcastTo S2000x128 (shapeCast S1x128 b shapeCasts_S128_S1x128) broadcasts_S1x128_S2000x128))
      (broadcast S2000x128 (Scalar.ofBits (F := Ideal) .f32 0x00000000#32)) j
      = max (a j + b (ix1 (j 1))) (Ideal.ofBits .f32 0x00000000#32) := by
  rw [maximumf_apply, addf_apply, shapeCast_self, bias_apply]
  rfl

end Cert.KernelIdeal.TileAct

end
-- ==== Proof.Stage2.lean ====
/-
  The second dense stage, `relu (a + b1) · W2`, as the row-tiled kernel computes it.

  Point t of the 50-point grid stages rows 2000·t … 2000·t + 1999 of the aggregated features `a`, the whole
  bias `b1` and the whole of `W2`. On the tile it adds the bias along the columns, clamps at zero, and
  multiplies by `W2` into a zero accumulator. At the extended reals the tile's entry (p, q) is
  Σ_k max (a[2000·t + p, k] + b1[k]) 0 · W2[k, q]: entry (2000·t + p, q) of
  `Cert.Gcn.lin2 (Cert.Gcn.biasRelu a b1) W2`. Bias and rectifier act entry by entry and the product reads
  one row of its left factor, so the tiles are restrictions of that one function, and the 50 of them cover
  the result array.

  Everything is stated at an arbitrary valuation `V` of the buffers at the region's entry.
-/
import proofs.«110515_j61572651155681_1_alg».proof.Proof.Gen.KernelIdeal.Frame
import proofs.«110515_j61572651155681_1_alg».proof.Proof.Spec
import proofs.«110515_j61572651155681_1_alg».proof.Proof.TileAct
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage2

open Cert.KernelIdeal Cert.KernelIdeal.Gen Cert.Gcn

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-! ## The tile's product, entry by entry -/

/-- The left factor's row coordinate is the output's row. -/
theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left factor's column coordinate is the summation index. -/
theorem lhs_col (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- The right factor's row coordinate is the summation index. -/
theorem rhs_row (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- The right factor's column coordinate is the output's column. -/
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `j` of the tile the body stores: the sum over the 128 hidden units of the rectified, biased staged row
    against the staged column of `W2`. -/
theorem tile_apply (ab : Vec Ideal S2000x128 .f32) (bb : Vec Ideal S128 .f32) (wb : Vec Ideal S128x128 .f32) (j : S2000x128.Idx) :
    k1_pay1 ab bb wb j = ∑ k : Fin 128, max (ab (ix2 (j 0) k) + bb (ix1 k)) (Ideal.ofBits .f32 0x00000000#32) * wb (ix2 k (j 1)) := by
  unfold k1_pay1
  refine (Ideal.matmul_constant_zero_apply dot_S2000x128_S128x128_S2000x128_1_0_0_1_n_n none _ _ j).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (j 0) k := funext fun a => Fin.ext (by
    match a with
    | ⟨0, _⟩ => exact lhs_row _ _
    | ⟨1, _⟩ => exact (lhs_col _ _).trans hk)
  have er : dot_S2000x128_S128x128_S2000x128_1_0_0_1_n_n.rhsIdx j ((contrEquiv1 dot_S2000x128_S128x128_S2000x128_1_0_0_1_n_n 128 rfl rfl).symm k) = ix2 k (j 1) := funext fun a => Fin.ext (by
    match a with
    | ⟨0, _⟩ => exact (rhs_row _ _).trans hk
    | ⟨1, _⟩ => exact rhs_col _ _)
  rw [el, er]
  exact congrArg (· * wb (ix2 k (j 1))) (TileAct.act_apply ab bb (ix2 (j 0) k))

/-- A tile whose staged rows are rows of `a` (`ha`), whose staged bias is `b` (`hb`) and whose staged matrix is
    `w` (`hw`) holds, at its local entry `y`, the entry `g` of `lin2 (biasRelu a b) w` on that row and column. -/
theorem tile_eq (a : FVec Ideal S100000x128 .f32) (b : FVec Ideal S128 .f32) (w : FVec Ideal S128x128 .f32)
    (ab : Vec Ideal S2000x128 .f32) (bb : Vec Ideal S128 .f32) (wb : Vec Ideal S128x128 .f32)
    (y : S2000x128.Idx) (g : S100000x128.Idx)
    (ha : ∀ k : Fin 128, ab (ix2 (y 0) k) = a (ix2 (g 0) k))
    (hb : ∀ k : Fin 128, bb (ix1 k) = b (ix1 k))
    (hw : ∀ k : Fin 128, wb (ix2 k (y 1)) = w (ix2 k (g 1))) :
    k1_pay1 ab bb wb y = lin2 (biasRelu a b) w g := by
  rw [tile_apply]
  unfold lin2 biasRelu
  exact Finset.sum_congr rfl fun k _ => by rw [ha k, hb k, hw k]

/-! ## From tiles to the array -/

/-- The printed index maps over the 50 grid points: the rows window and the result window sit at block row `t`,
    block column 0; the bias window at block 0 and the weight window at block (0, 0). -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of `lin2 (biasRelu a b1) W2`, the three arrays as the region finds them. -/
theorem flushed_eq (c : Dev nD) (t : Fin cfg1.N) :
    (dat1 V c).flushed 3 t = ((cfg1.win 3).blk t).view.read (Elt Ideal)
      (lin2 (biasRelu (V c main_v43) (V c main_arg3)) (V c main_arg4)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S128) zero_offset, View.ld_unit_zero (S := S128x128) zero_offsets]
  obtain ⟨e0, e1, e2, e3, e4, e5, e6⟩ := idx_facts t
  funext y
  show k1_pay1 (iblk1 V c 0 t) (iblk1 V c 1 t) (iblk1 V c 2 t) y
    = lin2 (biasRelu (V c main_v43) (V c main_arg3)) (V c main_arg4) (((cfg1.win 3).blk t).view.emb y)
  refine tile_eq (V c main_v43) (V c main_arg3) (V c main_arg4) _ _ _ y _ (fun k => ?_) (fun k => ?_) (fun k => ?_)
  · show V c main_v43 (((cfg1.win 0).blk t).view.emb (ix2 (y 0) k)) = V c main_v43 (ix2 ((((cfg1.win 3).blk t).view.emb y) 0) k)
    refine congrArg (V c main_v43) (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 128 + 1 * k.val = k.val; omega
  · show V c main_arg3 (((cfg1.win 1).blk t).view.emb (ix1 k)) = V c main_arg3 (ix1 k)
    refine congrArg (V c main_arg3) (funext fun a => Fin.ext ?_)
    match a with
    | ⟨0, _⟩ => show win1_1.index t (0 : Fin 1) * 128 + 1 * k.val = k.val; omega
  · show V c main_arg4 (((cfg1.win 2).blk t).view.emb (ix2 k (y 1))) = V c main_arg4 (ix2 k ((((cfg1.win 3).blk t).view.emb y) 1))
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (y 1).val = win1_3.index t (1 : Fin 2) * 128 + 1 * (y 1).val; omega

/-- An index of the result is in point `t`'s block iff each coordinate is in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v44).slice (win1_3.rect t)).set ↔ _
  rw [View.set_slice_whole, Rect.mem_set_unit]
  exact Iff.rfl

/-- Row `r` of the result lies in the block of point `r / 2000`: the 50 blocks cover the array. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have ht : (i 0).val / 2000 < cfg1.N := by rw [hN]; omega
  refine ⟨⟨(i 0).val / 2000, ht⟩, flush1_3 _, ?_⟩
  rw [mem_blk]
  obtain ⟨-, -, -, -, -, e5, e6⟩ := idx_facts ⟨(i 0).val / 2000, ht⟩
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e5]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e6]; omega

/-- THE RESULT ARRAY after the region: `lin2 (biasRelu a b1) W2`, whole. -/
theorem final (c : Dev nD) : (dat1 V c).arrAt 3 cfg1.N = lin2 (biasRelu (V c main_v43) (V c main_arg3)) (V c main_arg4) :=
  (dat1 V c).arrAt_eq_of_cover 3 _ (fun t _ => flushed_eq V c t) cover

end Cert.KernelIdeal.Stage2

end
-- ==== Proof.Stage3.lean ====
/-
  The last stage, as the row-tiled kernel computes it: the embeddings `relu (a + b2)` and the logits
  `relu (a + b2) · Wc + bc`.

  Point t of the 50-point grid stages rows 2000·t … 2000·t + 1999 of the aggregated features `a`, the whole
  bias `b2`, the whole of `Wc` and the whole of `bc`. It stores the biased, rectified tile as rows 2000·t … of
  the embeddings, then multiplies that same tile by `Wc` into a zero accumulator, adds `bc` along the two
  columns and stores the [2000, 2] result as rows 2000·t … of the logits. Entry (p, q) of the first tile is
  `max (a[2000·t + p, q] + b2[q]) 0`, of the second Σ_k max (a[2000·t + p, k] + b2[k]) 0 · Wc[k, q] + bc[q]:
  the entries of `Cert.Gcn.biasRelu a b2` and `Cert.Gcn.head (Cert.Gcn.biasRelu a b2) Wc bc` on row 2000·t + p.
  Each output's 50 tiles cover its array.

  Everything is stated at an arbitrary valuation `V` of the buffers at the region's entry.
-/
import proofs.«110515_j61572651155681_1_alg».proof.Proof.Gen.KernelIdeal.Frame
import proofs.«110515_j61572651155681_1_alg».proof.Proof.Spec
import proofs.«110515_j61572651155681_1_alg».proof.Proof.TileAct
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage3

open Cert.KernelIdeal Cert.KernelIdeal.Gen Cert.Gcn

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-! ## The embeddings' tile, entry by entry -/

/-- Entry `j` of the tile stored to the embeddings: `max (a[j] + b[column of j]) 0`. -/
theorem emb_tile_apply (ab : Vec Ideal S2000x128 .f32) (bb : Vec Ideal S128 .f32) (j : S2000x128.Idx) :
    k2_pay1 ab bb j = max (ab j + bb (ix1 (j 1))) (Ideal.ofBits .f32 0x00000000#32) := by
  unfold k2_pay1
  exact TileAct.act_apply ab bb j

/-- A tile whose staged entry is an entry of `a` (`ha`) and whose staged bias is `b` (`hb`) holds the entry of
    `biasRelu a b` there. -/
theorem emb_tile_eq (a : FVec Ideal S100000x128 .f32) (b : FVec Ideal S128 .f32)
    (ab : Vec Ideal S2000x128 .f32) (bb : Vec Ideal S128 .f32) (y : S2000x128.Idx) (g : S100000x128.Idx)
    (ha : ab y = a g) (hb : bb (ix1 (y 1)) = b (ix1 (g 1))) :
    k2_pay1 ab bb y = biasRelu a b g := by
  rw [emb_tile_apply, ha, hb]
  rfl

/-! ## The logits' tile, entry by entry -/

/-- The left factor's row coordinate is the output's row. -/
theorem lhs_row (j : S2000x2.Idx) (q : dot_S2000x128_S128x2_S2000x2_1_0_0_1_n_n.contr.Idx) :
    (dot_S2000x128_S128x2_S2000x2_1_0_0_1_n_n.lhsIdx j q 0).val = (j 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
/-- The left factor's column coordinate is the summation index. -/
theorem lhs_col (j : S2000x2.Idx) (q : dot_S2000x128_S128x2_S2000x2_1_0_0_1_n_n.contr.Idx) :
    (dot_S2000x128_S128x2_S2000x2_1_0_0_1_n_n.lhsIdx j q 1).val = (q ⟨0, by decide⟩).val :=
  dot_S2000x128_S128x2_S2000x2_1_0_0_1_n_n.lhsIdx_val_of_single rfl j q
/-- The right factor's row coordinate is the summation index. -/
theorem rhs_row (j : S2000x2.Idx) (q : dot_S2000x128_S128x2_S2000x2_1_0_0_1_n_n.contr.Idx) :
    (dot_S2000x128_S128x2_S2000x2_1_0_0_1_n_n.rhsIdx j q 0).val = (q ⟨0, by decide⟩).val :=
  dot_S2000x128_S128x2_S2000x2_1_0_0_1_n_n.rhsIdx_val_of_single rfl j q
/-- The right factor's column coordinate is the output's column. -/
theorem rhs_col (j : S2000x2.Idx) (q : dot_S2000x128_S128x2_S2000x2_1_0_0_1_n_n.contr.Idx) :
    (dot_S2000x128_S128x2_S2000x2_1_0_0_1_n_n.rhsIdx j q 1).val = (j 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The class bias, viewed as [1, 2] and repeated down the rows, read at (p, q): `bc[q]`. -/
theorem class_bias_apply (cb : Vec Ideal S2 .f32) (j : S2000x2.Idx) :
    broadcastTo S2000x2 (shapeCast S1x2 cb shapeCasts_S2_S1x2) broadcasts_S1x2_S2000x2 j = cb (ix1 (j 1)) := by
  rw [broadcastTo_apply (shapeCast S1x2 cb shapeCasts_S2_S1x2) broadcasts_S1x2_S2000x2 j (ix2 (0 : Fin 1) (j 1))
    (fun a => by match a with | ⟨0, _⟩ => rfl | ⟨1, _⟩ => rfl)]
  rw [shapeCast_addUnit_apply ![2] cb shapeCasts_S2_S1x2 (ix2 (0 : Fin 1) (j 1))]
  exact congrArg cb (funext fun a => by match a with | ⟨0, _⟩ => rfl)

/-- The product part of the logits' tile at `j`: the sum over the 128 hidden units of the rectified, biased
    staged row against the staged column of `Wc`. -/
theorem logit_prod_apply (ab : Vec Ideal S2000x128 .f32) (bb : Vec Ideal S128 .f32) (wb : Vec Ideal S128x2 .f32) (j : S2000x2.Idx) :
    matmul dot_S2000x128_S128x2_S2000x2_1_0_0_1_n_n none (truncf .bf16 (k2_pay1 ab bb) bitsLt_bf16_f32) (truncf .bf16 wb bitsLt_bf16_f32) (constant S2000x2 .f32 0x00000000#32) j
      = ∑ k : Fin 128, max (ab (ix2 (j 0) k) + bb (ix1 k)) (Ideal.ofBits .f32 0x00000000#32) * wb (ix2 k (j 1)) := by
  refine (Ideal.matmul_constant_zero_apply dot_S2000x128_S128x2_S2000x2_1_0_0_1_n_n none _ _ j).trans ?_
  rw [← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx j ((contrEquiv1 dot_S2000x128_S128x2_S2000x2_1_0_0_1_n_n 128 rfl rfl).symm k) = ix2 (j 0) k := funext fun a => Fin.ext (by
    match a with
    | ⟨0, _⟩ => exact lhs_row _ _
    | ⟨1, _⟩ => exact (lhs_col _ _).trans hk)
  have er : dot_S2000x128_S128x2_S2000x2_1_0_0_1_n_n.rhsIdx j ((contrEquiv1 dot_S2000x128_S128x2_S2000x2_1_0_0_1_n_n 128 rfl rfl).symm k) = ix2 k (j 1) := funext fun a => Fin.ext (by
    match a with
    | ⟨0, _⟩ => exact (rhs_row _ _).trans hk
    | ⟨1, _⟩ => exact rhs_col _ _)
  rw [el, er]
  exact congrArg (· * wb (ix2 k (j 1))) (emb_tile_apply ab bb (ix2 (j 0) k))

/-- Entry `j` of the tile stored to the logits: that sum, plus `bc` at `j`'s column. -/
theorem logit_tile_apply (ab : Vec Ideal S2000x128 .f32) (bb : Vec Ideal S128 .f32) (wb : Vec Ideal S128x2 .f32) (cb : Vec Ideal S2 .f32) (j : S2000x2.Idx) :
    k2_pay2 ab bb wb cb j
      = (∑ k : Fin 128, max (ab (ix2 (j 0) k) + bb (ix1 k)) (Ideal.ofBits .f32 0x00000000#32) * wb (ix2 k (j 1))) + cb (ix1 (j 1)) := by
  unfold k2_pay2
  exact congrArg₂ (· + ·) (logit_prod_apply ab bb wb j) (class_bias_apply cb j)

/-- A tile whose staged rows are rows of `a`, whose staged bias is `b`, whose staged matrix is `w` and whose
    staged class bias is `cbias` holds, at its local entry `y`, the entry `g` of `head (biasRelu a b) w cbias`
    on that row and column. -/
theorem logit_tile_eq (a : FVec Ideal S100000x128 .f32) (b : FVec Ideal S128 .f32) (w : FVec Ideal S128x2 .f32) (cbias : FVec Ideal S2 .f32)
    (ab : Vec Ideal S2000x128 .f32) (bb : Vec Ideal S128 .f32) (wb : Vec Ideal S128x2 .f32) (cb : Vec Ideal S2 .f32)
    (y : S2000x2.Idx) (g : S100000x2.Idx)
    (ha : ∀ k : Fin 128, ab (ix2 (y 0) k) = a (ix2 (g 0) k))
    (hb : ∀ k : Fin 128, bb (ix1 k) = b (ix1 k))
    (hw : ∀ k : Fin 128, wb (ix2 k (y 1)) = w (ix2 k (g 1)))
    (hc : cb (ix1 (y 1)) = cbias (ix1 (g 1))) :
    k2_pay2 ab bb wb cb y = head (biasRelu a b) w cbias g := by
  rw [logit_tile_apply, hc]
  unfold head biasRelu
  exact congrArg (· + cbias (ix1 (g 1))) (Finset.sum_congr rfl fun k _ => by rw [ha k, hb k, hw k])

/-! ## From tiles to the arrays -/

/-- The printed index maps over the 50 grid points: the rows window and both result windows sit at block row `t`,
    block column 0; the two bias windows at block 0 and the weight window at block (0, 0). -/
theorem idx_facts : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK TO THE EMBEDDINGS is block `t` of `biasRelu a b2`. -/
theorem flushed_emb (c : Dev nD) (t : Fin cfg2.N) :
    (dat2 V c).flushed 4 t = ((cfg2.win 4).blk t).view.read (Elt Ideal) (biasRelu (V c main_v57) (V c main_arg5)) := by
  show (cfg2.win 4).cut (grid2.coords t) ((dat2 V c).after 4 t) = _
  rw [after2_4]
  unfold out2_4
  rw [View.canon_unit_zero zero_offsets]
  simp only [View.ld_unit_zero (S := S2000x128) zero_offsets, View.ld_unit_zero (S := S128) zero_offset]
  obtain ⟨e0, e1, e2, e3, e4, e5, e6, e7, e8, e9⟩ := idx_facts t
  funext y
  show k2_pay1 (iblk2 V c 0 t) (iblk2 V c 1 t) y = biasRelu (V c main_v57) (V c main_arg5) (((cfg2.win 4).blk t).view.emb y)
  refine emb_tile_eq (V c main_v57) (V c main_arg5) _ _ y _ ?_ ?_
  · show V c main_v57 (((cfg2.win 0).blk t).view.emb y) = V c main_v57 (((cfg2.win 4).blk t).view.emb y)
    refine congrArg (V c main_v57) (funext fun a => Fin.ext ?_)
    match a with
    | ⟨0, _⟩ => show win2_0.index t (0 : Fin 2) * 2000 + 1 * (y 0).val = win2_4.index t (0 : Fin 2) * 2000 + 1 * (y 0).val; omega
    | ⟨1, _⟩ => show win2_0.index t (1 : Fin 2) * 128 + 1 * (y 1).val = win2_4.index t (1 : Fin 2) * 128 + 1 * (y 1).val; omega
  · show V c main_arg5 (((cfg2.win 1).blk t).view.emb (ix1 (y 1))) = V c main_arg5 (ix1 ((((cfg2.win 4).blk t).view.emb y) 1))
    refine congrArg (V c main_arg5) (funext fun a => Fin.ext ?_)
    match a with
    | ⟨0, _⟩ => show win2_1.index t (0 : Fin 1) * 128 + 1 * (y 1).val = win2_4.index t (1 : Fin 2) * 128 + 1 * (y 1).val; omega

/-- WHAT POINT `t` WRITES BACK TO THE LOGITS is block `t` of `head (biasRelu a b2) Wc bc`. -/
theorem flushed_logits (c : Dev nD) (t : Fin cfg2.N) :
    (dat2 V c).flushed 5 t = ((cfg2.win 5).blk t).view.read (Elt Ideal)
      (head (biasRelu (V c main_v57) (V c main_arg5)) (V c main_arg6) (V c main_arg7)) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S128) zero_offset, View.ld_unit_zero (S := S128x2) zero_offsets, View.ld_unit_zero (S := S2) zero_offset]
  obtain ⟨e0, e1, e2, e3, e4, e5, e6, e7, e8, e9⟩ := idx_facts t
  funext y
  show k2_pay2 (iblk2 V c 0 t) (iblk2 V c 1 t) (iblk2 V c 2 t) (iblk2 V c 3 t) y
    = head (biasRelu (V c main_v57) (V c main_arg5)) (V c main_arg6) (V c main_arg7) (((cfg2.win 5).blk t).view.emb y)
  refine logit_tile_eq (V c main_v57) (V c main_arg5) (V c main_arg6) (V c main_arg7) _ _ _ _ y _ (fun k => ?_) (fun k => ?_) (fun k => ?_) ?_
  · show V c main_v57 (((cfg2.win 0).blk t).view.emb (ix2 (y 0) k)) = V c main_v57 (ix2 ((((cfg2.win 5).blk t).view.emb y) 0) k)
    refine congrArg (V c main_v57) (funext fun a => Fin.ext ?_)
    match a with
    | ⟨0, _⟩ => show win2_0.index t (0 : Fin 2) * 2000 + 1 * (y 0).val = win2_5.index t (0 : Fin 2) * 2000 + 1 * (y 0).val; omega
    | ⟨1, _⟩ => show win2_0.index t (1 : Fin 2) * 128 + 1 * k.val = k.val; omega
  · show V c main_arg5 (((cfg2.win 1).blk t).view.emb (ix1 k)) = V c main_arg5 (ix1 k)
    refine congrArg (V c main_arg5) (funext fun a => Fin.ext ?_)
    match a with
    | ⟨0, _⟩ => show win2_1.index t (0 : Fin 1) * 128 + 1 * k.val = k.val; omega
  · show V c main_arg6 (((cfg2.win 2).blk t).view.emb (ix2 k (y 1))) = V c main_arg6 (ix2 k ((((cfg2.win 5).blk t).view.emb y) 1))
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 2 + 1 * (y 1).val = win2_5.index t (1 : Fin 2) * 2 + 1 * (y 1).val; omega
  · show V c main_arg7 (((cfg2.win 3).blk t).view.emb (ix1 (y 1))) = V c main_arg7 (ix1 ((((cfg2.win 5).blk t).view.emb y) 1))
    refine congrArg (V c main_arg7) (funext fun a => Fin.ext ?_)
    match a with
    | ⟨0, _⟩ => show win2_3.index t (0 : Fin 1) * 2 + 1 * (y 1).val = win2_5.index t (1 : Fin 2) * 2 + 1 * (y 1).val; omega

/-- An index of the embeddings is in point `t`'s block iff each coordinate is in the block's range on its axis. -/
theorem mem_blk_emb (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v58_0).slice (win2_4.rect t)).set ↔ _
  rw [View.set_slice_whole, Rect.mem_set_unit]
  exact Iff.rfl

/-- The same for the logits. -/
theorem mem_blk_logits (t : Fin cfg2.N) (i : S100000x2.Idx) :
    i ∈ ((cfg2.win 5).blk t).view.set ↔ ∀ a : Fin 2, win2_5.index t a * S2000x2.size a ≤ (i a).val ∧ (i a).val < win2_5.index t a * S2000x2.size a + S2000x2.size a := by
  show i ∈ ((View.whole main_v58_1).slice (win2_5.rect t)).set ↔ _
  rw [View.set_slice_whole, Rect.mem_set_unit]
  exact Iff.rfl

/-- Row `r` of the embeddings lies in the block of point `r / 2000`: the 50 blocks cover the array. -/
theorem cover_emb (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  have ht : (i 0).val / 2000 < cfg2.N := by rw [hN]; omega
  refine ⟨⟨(i 0).val / 2000, ht⟩, flush2_4 _, ?_⟩
  rw [mem_blk_emb]
  obtain ⟨-, -, -, -, -, -, e6, e7, -, -⟩ := idx_facts ⟨(i 0).val / 2000, ht⟩
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win2_4.index ⟨(i 0).val / 2000, ht⟩ (1 : Fin 2) * 128 ≤ (i 1).val ∧ (i 1).val < win2_4.index ⟨(i 0).val / 2000, ht⟩ (1 : Fin 2) * 128 + 128
    rw [e7]; omega

/-- Row `r` of the logits lies in the block of point `r / 2000`: the 50 blocks cover the array. -/
theorem cover_logits (i : S100000x2.Idx) : ∃ t : Fin cfg2.N, (cfg2.win 5).flush t = true ∧ i ∈ ((cfg2.win 5).blk t).view.set := by
  have hi0 : (i 0).val < 100000 := (i 0).isLt
  have hi1 : (i 1).val < 2 := (i 1).isLt
  have hN : cfg2.N = 50 := N_2
  have ht : (i 0).val / 2000 < cfg2.N := by rw [hN]; omega
  refine ⟨⟨(i 0).val / 2000, ht⟩, flush2_5 _, ?_⟩
  rw [mem_blk_logits]
  obtain ⟨-, -, -, -, -, -, -, -, e8, e9⟩ := idx_facts ⟨(i 0).val / 2000, ht⟩
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win2_5.index ⟨(i 0).val / 2000, ht⟩ (1 : Fin 2) * 2 ≤ (i 1).val ∧ (i 1).val < win2_5.index ⟨(i 0).val / 2000, ht⟩ (1 : Fin 2) * 2 + 2
    rw [e9]; omega

/-- THE EMBEDDINGS after the region: `biasRelu a b2`, whole. -/
theorem final_emb (c : Dev nD) : (dat2 V c).arrAt 4 cfg2.N = biasRelu (V c main_v57) (V c main_arg5) :=
  (dat2 V c).arrAt_eq_of_cover 4 _ (fun t _ => flushed_emb V c t) cover_emb

/-- THE LOGITS after the region: `head (biasRelu a b2) Wc bc`, whole. -/
theorem final_logits (c : Dev nD) :
    (dat2 V c).arrAt 5 cfg2.N = head (biasRelu (V c main_v57) (V c main_arg5)) (V c main_arg6) (V c main_arg7) :=
  (dat2 V c).arrAt_eq_of_cover 5 _ (fun t _ => flushed_logits V c t) cover_logits

end Cert.KernelIdeal.Stage3

end
-- ==== Proof.Flow.lean ====
/-
  The host side of the kernel's program: everything @main does outside its three tiled regions, read as
  pure functions of the buffers it starts from.

  Before the first region the program turns the edge list `e` into the message sources `srcOf e` and
  destinations `dstOf e` (the edges followed by one self loop per node), and from the destinations' counts
  into the per-message normalisation `nrmOf (srcOf e) (dstOf e)`. Between the regions it runs one round of
  message passing, `agg h s d n`, on the array `h` the previous region left: gather the rows of `h` at the
  sources, scale, scatter-add at the destinations. None of these functions is ever opened: the reference
  applies the very same ones, so only what goes INTO them has to agree.

  Each lemma reads one buffer after one stretch of host operations, from an arbitrary valuation `W` of the
  buffers before it; a buffer the stretch does not write keeps its contents.
-/
import proofs.«110515_j61572651155681_1_alg».proof.Proof.Gen.KernelIdeal.Launch
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Flow

open Cert.KernelIdeal Cert.KernelIdeal.Gen

variable {F : FTy → Type} [FloatOps F]

/-- The edge sources: row 0 of the edge list, followed by the self loops 0, 1, …, 99999. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge destinations: row 1 of the edge list, followed by the same self loops. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index made non-negative the way array indexing does it: a negative entry has 100000 added. -/
def wrap (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- The in-degree of every node, self loop included: ones scattered and added along the destinations. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- The inverse square root of the degree where it is positive, zero elsewhere. -/
def dinv (d : (⟨S1700000, .i32⟩ : BufTy).Contents (Elt F)) : (⟨S100000, .f32⟩ : BufTy).Contents (Elt F) :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

/-- The symmetric normalisation of every message: `dinv` at its source times `dinv` at its destination. -/
def nrmOf (s d : (⟨S1700000, .i32⟩ : BufTy).Contents (Elt F)) : (⟨S1700000, .f32⟩ : BufTy).Contents (Elt F) :=
  mulf (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d)))

/-- One round of message passing: the rows of `h` gathered at the sources, each scaled by its message's
    normalisation, scattered and added along the destinations into a zero array. -/
def agg (h : (⟨S100000x128, .f32⟩ : BufTy).Contents (Elt F)) (s d : (⟨S1700000, .i32⟩ : BufTy).Contents (Elt F)) (n : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 n)))

/-! ## The stretch before the first region -/

section Stretches

variable (W : Valuation τ sig (Elt F))

set_option maxHeartbeats 4000000 in
/-- After the opening stretch the sources buffer holds `srcOf` of the edge list. -/
theorem pre_src : after hostOps0_2 (after hostOps0_1 (after hostOps0 W)) (Proc.devRef .tc main_v3) = srcOf (W (Proc.devRef .tc main_arg1)) := by
  after_results_simp <;> rfl

set_option maxHeartbeats 4000000 in
/-- After the opening stretch the destinations buffer holds `dstOf` of the edge list. -/
theorem pre_dst : after hostOps0_2 (after hostOps0_1 (after hostOps0 W)) (Proc.devRef .tc main_v6) = dstOf (W (Proc.devRef .tc main_arg1)) := by
  after_results_simp <;> rfl

set_option maxHeartbeats 4000000 in
/-- After the opening stretch the normalisation buffer holds `nrmOf` of the sources and destinations. -/
theorem pre_nrm : after hostOps0_2 (after hostOps0_1 (after hostOps0 W)) (Proc.devRef .tc main_v29)
    = nrmOf (srcOf (W (Proc.devRef .tc main_arg1))) (dstOf (W (Proc.devRef .tc main_arg1))) := by
  after_results_simp <;> rfl

set_option maxHeartbeats 4000000 in
/-- The opening stretch does not write `main_arg0`. -/
theorem pre_main_arg0 : after hostOps0_2 (after hostOps0_1 (after hostOps0 W)) (Proc.devRef .tc main_arg0) = W (Proc.devRef .tc main_arg0) := by
  after_results_simp <;> rfl

set_option maxHeartbeats 4000000 in
/-- The opening stretch does not write `main_arg2`. -/
theorem pre_main_arg2 : after hostOps0_2 (after hostOps0_1 (after hostOps0 W)) (Proc.devRef .tc main_arg2) = W (Proc.devRef .tc main_arg2) := by
  after_results_simp <;> rfl

set_option maxHeartbeats 4000000 in
/-- The opening stretch does not write `main_arg3`. -/
theorem pre_main_arg3 : after hostOps0_2 (after hostOps0_1 (after hostOps0 W)) (Proc.devRef .tc main_arg3) = W (Proc.devRef .tc main_arg3) := by
  after_results_simp <;> rfl

set_option maxHeartbeats 4000000 in
/-- The opening stretch does not write `main_arg4`. -/
theorem pre_main_arg4 : after hostOps0_2 (after hostOps0_1 (after hostOps0 W)) (Proc.devRef .tc main_arg4) = W (Proc.devRef .tc main_arg4) := by
  after_results_simp <;> rfl

set_option maxHeartbeats 4000000 in
/-- The opening stretch does not write `main_arg5`. -/
theorem pre_main_arg5 : after hostOps0_2 (after hostOps0_1 (after hostOps0 W)) (Proc.devRef .tc main_arg5) = W (Proc.devRef .tc main_arg5) := by
  after_results_simp <;> rfl

set_option maxHeartbeats 4000000 in
/-- The opening stretch does not write `main_arg6`. -/
theorem pre_main_arg6 : after hostOps0_2 (after hostOps0_1 (after hostOps0 W)) (Proc.devRef .tc main_arg6) = W (Proc.devRef .tc main_arg6) := by
  after_results_simp <;> rfl

set_option maxHeartbeats 4000000 in
/-- The opening stretch does not write `main_arg7`. -/
theorem pre_main_arg7 : after hostOps0_2 (after hostOps0_1 (after hostOps0 W)) (Proc.devRef .tc main_arg7) = W (Proc.devRef .tc main_arg7) := by
  after_results_simp <;> rfl

/-! ## The stretch between the first and the second region -/

set_option maxHeartbeats 4000000 in
/-- The first round of message passing, on what the first region left in `main_v30`. -/
theorem mid1_agg : after hostOps1 W (Proc.devRef .tc main_v43)
    = agg (W (Proc.devRef .tc main_v30)) (W (Proc.devRef .tc main_v3)) (W (Proc.devRef .tc main_v6)) (W (Proc.devRef .tc main_v29)) := by
  after_results_simp <;> rfl

set_option maxHeartbeats 4000000 in
/-- That stretch does not write `main_v3`. -/
theorem mid1_main_v3 : after hostOps1 W (Proc.devRef .tc main_v3) = W (Proc.devRef .tc main_v3) := by
  after_results_simp <;> rfl

set_option maxHeartbeats 4000000 in
/-- That stretch does not write `main_v6`. -/
theorem mid1_main_v6 : after hostOps1 W (Proc.devRef .tc main_v6) = W (Proc.devRef .tc main_v6) := by
  after_results_simp <;> rfl

set_option maxHeartbeats 4000000 in
/-- That stretch does not write `main_v29`. -/
theorem mid1_main_v29 : after hostOps1 W (Proc.devRef .tc main_v29) = W (Proc.devRef .tc main_v29) := by
  after_results_simp <;> rfl

set_option maxHeartbeats 4000000 in
/-- That stretch does not write `main_arg3`. -/
theorem mid1_main_arg3 : after hostOps1 W (Proc.devRef .tc main_arg3) = W (Proc.devRef .tc main_arg3) := by
  after_results_simp <;> rfl

set_option maxHeartbeats 4000000 in
/-- That stretch does not write `main_arg4`. -/
theorem mid1_main_arg4 : after hostOps1 W (Proc.devRef .tc main_arg4) = W (Proc.devRef .tc main_arg4) := by
  after_results_simp <;> rfl

set_option maxHeartbeats 4000000 in
/-- That stretch does not write `main_arg5`. -/
theorem mid1_main_arg5 : after hostOps1 W (Proc.devRef .tc main_arg5) = W (Proc.devRef .tc main_arg5) := by
  after_results_simp <;> rfl

set_option maxHeartbeats 4000000 in
/-- That stretch does not write `main_arg6`. -/
theorem mid1_main_arg6 : after hostOps1 W (Proc.devRef .tc main_arg6) = W (Proc.devRef .tc main_arg6) := by
  after_results_simp <;> rfl

set_option maxHeartbeats 4000000 in
/-- That stretch does not write `main_arg7`. -/
theorem mid1_main_arg7 : after hostOps1 W (Proc.devRef .tc main_arg7) = W (Proc.devRef .tc main_arg7) := by
  after_results_simp <;> rfl

/-! ## The stretch between the second and the third region -/

set_option maxHeartbeats 4000000 in
/-- The second round of message passing, on what the second region left in `main_v44`. -/
theorem mid2_agg : after hostOps2 W (Proc.devRef .tc main_v57)
    = agg (W (Proc.devRef .tc main_v44)) (W (Proc.devRef .tc main_v3)) (W (Proc.devRef .tc main_v6)) (W (Proc.devRef .tc main_v29)) := by
  after_results_simp <;> rfl

set_option maxHeartbeats 4000000 in
/-- That stretch does not write `main_arg5`. -/
theorem mid2_main_arg5 : after hostOps2 W (Proc.devRef .tc main_arg5) = W (Proc.devRef .tc main_arg5) := by
  after_results_simp <;> rfl

set_option maxHeartbeats 4000000 in
/-- That stretch does not write `main_arg6`. -/
theorem mid2_main_arg6 : after hostOps2 W (Proc.devRef .tc main_arg6) = W (Proc.devRef .tc main_arg6) := by
  after_results_simp <;> rfl

set_option maxHeartbeats 4000000 in
/-- That stretch does not write `main_arg7`. -/
theorem mid2_main_arg7 : after hostOps2 W (Proc.devRef .tc main_arg7) = W (Proc.devRef .tc main_arg7) := by
  after_results_simp <;> rfl

end Stretches

end Cert.KernelIdeal.Flow

end
-- ==== Proof.KernelValue.lean ====
/-
  What the kernel's program computes, end to end, at the extended reals.

  The generated frame names the buffers' contents at every boundary of @main: `W3` on entry to the first
  region, `W4` on leaving it, `W5` after the host stretch that follows, and so on to `W8` at the return.
  Walking those boundaries with the three regions' whole-array results (`Stage1.final`, `Stage2.final`,
  `Stage3.final_emb` / `final_logits`) and the host stretches read as functions (`Flow`):

    W4[h1]  = lin1 x W1
    W5[a1]  = agg h1 S D N                     (S, D, N: sources, destinations, normalisation of the edge list)
    W6[h2]  = lin2 (biasRelu a1 b1) W2
    W7[a2]  = agg h2 S D N
    W8[emb] = biasRelu a2 b2,   W8[logits] = head (biasRelu a2 b2) Wc bc

  with every argument array, and S, D, N, carried unchanged across the boundaries that do not write them.
  So the two results are `embOf` / `logitsOf` of the arguments, and the run ends with them.
-/
import proofs.«110515_j61572651155681_1_alg».proof.Proof.RunAll
import proofs.«110515_j61572651155681_1_alg».proof.Proof.Stage1
import proofs.«110515_j61572651155681_1_alg».proof.Proof.Stage2
import proofs.«110515_j61572651155681_1_alg».proof.Proof.Stage3
import proofs.«110515_j61572651155681_1_alg».proof.Proof.Flow

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen Cert.Gcn Cert.KernelIdeal.Flow

/-- The embeddings as one function of the arguments: two rounds of "dense stage, message passing, bias,
    rectifier" over the edge list's sources, destinations and normalisation. -/
def embOf (x : FVec Ideal S100000x32 .f32) (e : IVec S2x1600000 32) (w1 : FVec Ideal S32x128 .f32) (b1 : FVec Ideal S128 .f32)
    (w2 : FVec Ideal S128x128 .f32) (b2 : FVec Ideal S128 .f32) : FVec Ideal S100000x128 .f32 :=
  biasRelu (agg (F := Ideal) (lin2 (biasRelu (agg (F := Ideal) (lin1 x w1) (srcOf (F := Ideal) e) (dstOf (F := Ideal) e) (nrmOf (F := Ideal) (srcOf (F := Ideal) e) (dstOf (F := Ideal) e))) b1) w2)
    (srcOf (F := Ideal) e) (dstOf (F := Ideal) e) (nrmOf (F := Ideal) (srcOf (F := Ideal) e) (dstOf (F := Ideal) e))) b2

/-- The logits: the classifier head on those embeddings. -/
def logitsOf (x : FVec Ideal S100000x32 .f32) (e : IVec S2x1600000 32) (w1 : FVec Ideal S32x128 .f32) (b1 : FVec Ideal S128 .f32)
    (w2 : FVec Ideal S128x128 .f32) (b2 : FVec Ideal S128 .f32) (wc : FVec Ideal S128x2 .f32) (bc : FVec Ideal S2 .f32) : FVec Ideal S100000x2 .f32 :=
  head (embOf x e w1 b1 w2 b2) wc bc

variable (m : (ℓ : Loc nD τ sig) → Buf (Elt Ideal) ℓ) (ρ : Dev nD → PrngReg) (c : Dev nD)

/-- The aggregated features on entry to the LAST region, and the three small arrays it stages, as functions of the
    arguments: the walk from the launch to that boundary. -/
theorem last_entry :
    V7 m ρ c main_v57 = agg (F := Ideal) (lin2 (biasRelu (agg (F := Ideal) (lin1 (m ((c.tc : Thread nD τ).loc main_arg0)) (m ((c.tc : Thread nD τ).loc main_arg2)))
          (srcOf (F := Ideal) (m ((c.tc : Thread nD τ).loc main_arg1))) (dstOf (F := Ideal) (m ((c.tc : Thread nD τ).loc main_arg1))) (nrmOf (F := Ideal) (srcOf (F := Ideal) (m ((c.tc : Thread nD τ).loc main_arg1))) (dstOf (F := Ideal) (m ((c.tc : Thread nD τ).loc main_arg1)))))
          (m ((c.tc : Thread nD τ).loc main_arg3))) (m ((c.tc : Thread nD τ).loc main_arg4)))
        (srcOf (F := Ideal) (m ((c.tc : Thread nD τ).loc main_arg1))) (dstOf (F := Ideal) (m ((c.tc : Thread nD τ).loc main_arg1))) (nrmOf (F := Ideal) (srcOf (F := Ideal) (m ((c.tc : Thread nD τ).loc main_arg1))) (dstOf (F := Ideal) (m ((c.tc : Thread nD τ).loc main_arg1))))
    ∧ V7 m ρ c main_arg5 = m ((c.tc : Thread nD τ).loc main_arg5)
    ∧ V7 m ρ c main_arg6 = m ((c.tc : Thread nD τ).loc main_arg6)
    ∧ V7 m ρ c main_arg7 = m ((c.tc : Thread nD τ).loc main_arg7) := by
  -- on entry to the first region
  have e_x : V3 m ρ c main_arg0 = m ((c.tc : Thread nD τ).loc main_arg0) := pre_main_arg0 (W0 m ρ c)
  have e_w1 : V3 m ρ c main_arg2 = m ((c.tc : Thread nD τ).loc main_arg2) := pre_main_arg2 (W0 m ρ c)
  -- on leaving it
  have r0 : W4 m ρ c (Proc.devRef .tc main_v30) = lin1 (m ((c.tc : Thread nD τ).loc main_arg0)) (m ((c.tc : Thread nD τ).loc main_arg2)) := by
    rw [show W4 m ρ c (Proc.devRef .tc main_v30) = (dat0 (V3 m ρ) c).arrAt 2 cfg0.N from W4_arr m ρ c 2, Stage1.final (V3 m ρ) c, e_x, e_w1]
  have s4 : W4 m ρ c (Proc.devRef .tc main_v3) = srcOf (F := Ideal) (m ((c.tc : Thread nD τ).loc main_arg1)) := (W4_of_ne m ρ c main_v3 (by decide)).trans (pre_src (W0 m ρ c))
  have d4 : W4 m ρ c (Proc.devRef .tc main_v6) = dstOf (F := Ideal) (m ((c.tc : Thread nD τ).loc main_arg1)) := (W4_of_ne m ρ c main_v6 (by decide)).trans (pre_dst (W0 m ρ c))
  have n4 : W4 m ρ c (Proc.devRef .tc main_v29) = nrmOf (F := Ideal) (srcOf (F := Ideal) (m ((c.tc : Thread nD τ).loc main_arg1))) (dstOf (F := Ideal) (m ((c.tc : Thread nD τ).loc main_arg1))) := (W4_of_ne m ρ c main_v29 (by decide)).trans (pre_nrm (W0 m ρ c))
  have b1_4 : W4 m ρ c (Proc.devRef .tc main_arg3) = m ((c.tc : Thread nD τ).loc main_arg3) := (W4_of_ne m ρ c main_arg3 (by decide)).trans (pre_main_arg3 (W0 m ρ c))
  have w2_4 : W4 m ρ c (Proc.devRef .tc main_arg4) = m ((c.tc : Thread nD τ).loc main_arg4) := (W4_of_ne m ρ c main_arg4 (by decide)).trans (pre_main_arg4 (W0 m ρ c))
  have b2_4 : W4 m ρ c (Proc.devRef .tc main_arg5) = m ((c.tc : Thread nD τ).loc main_arg5) := (W4_of_ne m ρ c main_arg5 (by decide)).trans (pre_main_arg5 (W0 m ρ c))
  have wc_4 : W4 m ρ c (Proc.devRef .tc main_arg6) = m ((c.tc : Thread nD τ).loc main_arg6) := (W4_of_ne m ρ c main_arg6 (by decide)).trans (pre_main_arg6 (W0 m ρ c))
  have bc_4 : W4 m ρ c (Proc.devRef .tc main_arg7) = m ((c.tc : Thread nD τ).loc main_arg7) := (W4_of_ne m ρ c main_arg7 (by decide)).trans (pre_main_arg7 (W0 m ρ c))
  -- on entry to the second region
  have a1 : V5 m ρ c main_v43 = agg (F := Ideal) (lin1 (m ((c.tc : Thread nD τ).loc main_arg0)) (m ((c.tc : Thread nD τ).loc main_arg2)))
      (srcOf (F := Ideal) (m ((c.tc : Thread nD τ).loc main_arg1))) (dstOf (F := Ideal) (m ((c.tc : Thread nD τ).loc main_arg1))) (nrmOf (F := Ideal) (srcOf (F := Ideal) (m ((c.tc : Thread nD τ).loc main_arg1))) (dstOf (F := Ideal) (m ((c.tc : Thread nD τ).loc main_arg1)))) := by
    rw [show V5 m ρ c main_v43 = _ from mid1_agg (W4 m ρ c), r0, s4, d4, n4]
  have e_b1 : V5 m ρ c main_arg3 = m ((c.tc : Thread nD τ).loc main_arg3) := (mid1_main_arg3 (W4 m ρ c)).trans b1_4
  have e_w2 : V5 m ρ c main_arg4 = m ((c.tc : Thread nD τ).loc main_arg4) := (mid1_main_arg4 (W4 m ρ c)).trans w2_4
  have s5 : W5 m ρ c (Proc.devRef .tc main_v3) = srcOf (F := Ideal) (m ((c.tc : Thread nD τ).loc main_arg1)) := (mid1_main_v3 (W4 m ρ c)).trans s4
  have d5 : W5 m ρ c (Proc.devRef .tc main_v6) = dstOf (F := Ideal) (m ((c.tc : Thread nD τ).loc main_arg1)) := (mid1_main_v6 (W4 m ρ c)).trans d4
  have n5 : W5 m ρ c (Proc.devRef .tc main_v29) = nrmOf (F := Ideal) (srcOf (F := Ideal) (m ((c.tc : Thread nD τ).loc main_arg1))) (dstOf (F := Ideal) (m ((c.tc : Thread nD τ).loc main_arg1))) := (mid1_main_v29 (W4 m ρ c)).trans n4
  have b2_5 : W5 m ρ c (Proc.devRef .tc main_arg5) = m ((c.tc : Thread nD τ).loc main_arg5) := (mid1_main_arg5 (W4 m ρ c)).trans b2_4
  have wc_5 : W5 m ρ c (Proc.devRef .tc main_arg6) = m ((c.tc : Thread nD τ).loc main_arg6) := (mid1_main_arg6 (W4 m ρ c)).trans wc_4
  have bc_5 : W5 m ρ c (Proc.devRef .tc main_arg7) = m ((c.tc : Thread nD τ).loc main_arg7) := (mid1_main_arg7 (W4 m ρ c)).trans bc_4
  -- on leaving it
  have r1 : W6 m ρ c (Proc.devRef .tc main_v44) = lin2 (biasRelu (agg (F := Ideal) (lin1 (m ((c.tc : Thread nD τ).loc main_arg0)) (m ((c.tc : Thread nD τ).loc main_arg2)))
      (srcOf (F := Ideal) (m ((c.tc : Thread nD τ).loc main_arg1))) (dstOf (F := Ideal) (m ((c.tc : Thread nD τ).loc main_arg1))) (nrmOf (F := Ideal) (srcOf (F := Ideal) (m ((c.tc : Thread nD τ).loc main_arg1))) (dstOf (F := Ideal) (m ((c.tc : Thread nD τ).loc main_arg1)))))
      (m ((c.tc : Thread nD τ).loc main_arg3))) (m ((c.tc : Thread nD τ).loc main_arg4)) := by
    rw [show W6 m ρ c (Proc.devRef .tc main_v44) = (dat1 (V5 m ρ) c).arrAt 3 cfg1.N from W6_arr m ρ c 3, Stage2.final (V5 m ρ) c, a1, e_b1, e_w2]
  have s6 : W6 m ρ c (Proc.devRef .tc main_v3) = srcOf (F := Ideal) (m ((c.tc : Thread nD τ).loc main_arg1)) := (W6_of_ne m ρ c main_v3 (by decide)).trans s5
  have d6 : W6 m ρ c (Proc.devRef .tc main_v6) = dstOf (F := Ideal) (m ((c.tc : Thread nD τ).loc main_arg1)) := (W6_of_ne m ρ c main_v6 (by decide)).trans d5
  have n6 : W6 m ρ c (Proc.devRef .tc main_v29) = nrmOf (F := Ideal) (srcOf (F := Ideal) (m ((c.tc : Thread nD τ).loc main_arg1))) (dstOf (F := Ideal) (m ((c.tc : Thread nD τ).loc main_arg1))) := (W6_of_ne m ρ c main_v29 (by decide)).trans n5
  have b2_6 : W6 m ρ c (Proc.devRef .tc main_arg5) = m ((c.tc : Thread nD τ).loc main_arg5) := (W6_of_ne m ρ c main_arg5 (by decide)).trans b2_5
  have wc_6 : W6 m ρ c (Proc.devRef .tc main_arg6) = m ((c.tc : Thread nD τ).loc main_arg6) := (W6_of_ne m ρ c main_arg6 (by decide)).trans wc_5
  have bc_6 : W6 m ρ c (Proc.devRef .tc main_arg7) = m ((c.tc : Thread nD τ).loc main_arg7) := (W6_of_ne m ρ c main_arg7 (by decide)).trans bc_5
  -- on entry to the third region
  refine ⟨?_, (mid2_main_arg5 (W6 m ρ c)).trans b2_6, (mid2_main_arg6 (W6 m ρ c)).trans wc_6, (mid2_main_arg7 (W6 m ρ c)).trans bc_6⟩
  rw [show V7 m ρ c main_v57 = _ from mid2_agg (W6 m ρ c), r1, s6, d6, n6]

/-- The embeddings buffer at the return. -/
theorem emb_value : W8 m ρ c (Proc.devRef .tc main_v58_0)
    = embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨a2, e_b2, -, -⟩ := last_entry m ρ c
  rw [show W8 m ρ c (Proc.devRef .tc main_v58_0) = (dat2 (V7 m ρ) c).arrAt 4 cfg2.N from W8_arr m ρ c 4, Stage3.final_emb (V7 m ρ) c, a2, e_b2]
  rfl

/-- The logits buffer at the return. -/
theorem logits_value : W8 m ρ c (Proc.devRef .tc main_v58_1)
    = logitsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨a2, e_b2, e_wc, e_bc⟩ := last_entry m ρ c
  rw [show W8 m ρ c (Proc.devRef .tc main_v58_1) = (dat2 (V7 m ρ) c).arrAt 5 cfg2.N from W8_arr m ρ c 5, Stage3.final_logits (V7 m ρ) c, a2, e_b2, e_wc, e_bc]
  rfl

/-- THE RUN, READ: every weakly fair execution terminates with the logits at `logitsOf` and the embeddings at `embOf` of
    the arguments, the arguments unchanged. -/
theorem run : θ_run defs (onTc (τ := τ) (main (F := Ideal))) ⟨m, fun _ => 0, ρ⟩ (fun r => ∀ c : Dev nD,
      r.2.mem ((c.tc : Thread nD τ).loc main_v58_1) = logitsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v58_0) = embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (logits_value m ρ c), (h c).2.1.trans (emb_value m ρ c), (h c).2.2⟩)
    (Cert.KernelIdeal.GenP.run_results (F := Ideal) m ρ)

end Cert.KernelIdeal.Whole

end
-- ==== Proof.RefFlow.lean ====
/-
  The reference, read as a stack of named functions.

  The plain reference computes, on the host, exactly the chain the kernel's program distributes over its
  regions: the same message sources, destinations and normalisation from the edge list, the same round of
  message passing `agg`, and between them three dense stages written with the host's own operations —
  a general product for `x · W1`, `· W2` and `· Wc`, and "add a row-broadcast bias, take the maximum with a
  broadcast zero" for the rectifier. This module names those stages (`dense1`, `dense2`, `act`, `cls`),
  states the reference's two results as their composition (the composed terms its run gives, unfolded,
  ARE these compositions), and then, at the extended reals, identifies each stage with the specification:
  the host's general product at an entry is the same finite sum Σ_k l[r, k] · r[k, c] that
  `Cert.Gcn.lin1` / `lin2` / `head` spell out, a broadcast bias read at (r, c) is `b[c]`, and the maximum
  with zero is `max · 0`.
-/
import proofs.«110515_j61572651155681_1_alg».proof.Proof.RefRun
import proofs.«110515_j61572651155681_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.Flow

open Cert.ReferenceIdeal Cert.ReferenceIdeal.Gen

section Named

variable {F : FTy → Type} [FloatOps F]

/-- The edge sources: row 0 of the edge list, followed by the self loops 0, 1, …, 99999. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge destinations: row 1 of the edge list, followed by the same self loops. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index made non-negative the way array indexing does it: a negative entry has 100000 added. -/
def wrap (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- The in-degree of every node, self loop included: ones scattered and added along the destinations. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- The inverse square root of the degree where it is positive, zero elsewhere. -/
def dinv (d : (⟨S1700000, .i32⟩ : BufTy).Contents (Elt F)) : (⟨S100000, .f32⟩ : BufTy).Contents (Elt F) :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

/-- The symmetric normalisation of every message: `dinv` at its source times `dinv` at its destination. -/
def nrmOf (s d : (⟨S1700000, .i32⟩ : BufTy).Contents (Elt F)) : (⟨S1700000, .f32⟩ : BufTy).Contents (Elt F) :=
  mulf (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d)))

/-- One round of message passing: the rows of `h` gathered at the sources, each scaled by its message's
    normalisation, scattered and added along the destinations into a zero array. -/
def agg (h : (⟨S100000x128, .f32⟩ : BufTy).Contents (Elt F)) (s d : (⟨S1700000, .i32⟩ : BufTy).Contents (Elt F)) (n : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 n)))

/-- The first layer's product as the host writes it. -/
def dense1 (x : (⟨S100000x32, .f32⟩ : BufTy).Contents (Elt F)) (w : (⟨S32x128, .f32⟩ : BufTy).Contents (Elt F)) : (⟨S100000x128, .f32⟩ : BufTy).Contents (Elt F) :=
  Host.dotGeneral dot_S100000x32_S32x128_S100000x128_1_0_0_1_n_n none x w

/-- The second layer's product as the host writes it. -/
def dense2 (h : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none h w

/-- Bias and rectifier as the host writes them: the bias viewed as [1, 128], repeated down the rows and added;
    then the maximum with a zero array. -/
def act (a : (⟨S100000x128, .f32⟩ : BufTy).Contents (Elt F)) (b : (⟨S128, .f32⟩ : BufTy).Contents (Elt F)) : (⟨S100000x128, .f32⟩ : BufTy).Contents (Elt F) :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The classifier as the host writes it: the product with `Wc`, plus the class bias repeated down the rows. -/
def cls (e : (⟨S100000x128, .f32⟩ : BufTy).Contents (Elt F)) (w : (⟨S128x2, .f32⟩ : BufTy).Contents (Elt F)) (b : (⟨S2, .f32⟩ : BufTy).Contents (Elt F)) : (⟨S100000x2, .f32⟩ : BufTy).Contents (Elt F) :=
  addf (Host.dotGeneral dot_S100000x128_S128x2_S100000x2_1_0_0_1_n_n none e w) (broadcastInDim S100000x2 ![0, 1] bcast_S1x2_S100000x2_0_1 (broadcastInDim S1x2 ![1] bcast_S2_S1x2_1 b))

/-- The embeddings: two rounds of "dense stage, message passing, bias, rectifier". -/
def embOf (x : (⟨S100000x32, .f32⟩ : BufTy).Contents (Elt F)) (e : (⟨S2x1600000, .i32⟩ : BufTy).Contents (Elt F)) (w1 : (⟨S32x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S100000x128, .f32⟩ : BufTy).Contents (Elt F) :=
  act (agg (dense2 (act (agg (dense1 x w1) (srcOf e) (dstOf e) (nrmOf (srcOf e) (dstOf e))) b1) w2) (srcOf e) (dstOf e) (nrmOf (srcOf e) (dstOf e))) b2

variable (m : (ℓ : Loc nD τ sig) → Buf (Elt F) ℓ) (c : Dev nD)

set_option maxHeartbeats 4000000 in
/-- The reference's second result (the embeddings) is that composition of its arguments. -/
theorem res_emb : RunP.res_main_v65 m c
    = embOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold RunP.res_main_v65 embOf act dense1 dense2 agg nrmOf dinv deg wrap srcOf dstOf
  rfl

set_option maxHeartbeats 4000000 in
/-- The reference's first result (the logits) is the classifier on those embeddings. -/
theorem res_logits : RunP.res_main_v69 m c
    = cls (embOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))
        (m ((c.tc : Thread nD τ).loc main_arg6)) (m ((c.tc : Thread nD τ).loc main_arg7)) := by
  unfold RunP.res_main_v69 cls embOf act dense1 dense2 agg nrmOf dinv deg wrap srcOf dstOf
  rfl

end Named

/-! ## The dense stages at the extended reals -/

/-- The left factor's row coordinate is the output's row. -/
theorem d1_lhs_row (j : S100000x128.Idx) (q : dot_S100000x32_S32x128_S100000x128_1_0_0_1_n_n.contr.Idx) :
    (dot_S100000x32_S32x128_S100000x128_1_0_0_1_n_n.lhsIdx j q 0).val = (j 0).val := by
  unfold DotDims.lhsIdx
  rw [dif_neg (show ¬(0 : Fin S100000x32.rank) ∈ dot_S100000x32_S32x128_S100000x128_1_0_0_1_n_n.lhsBatch by decide), dif_pos (show (0 : Fin S100000x32.rank) ∈ dot_S100000x32_S32x128_S100000x128_1_0_0_1_n_n.lhsNonContracting by decide)]
  rfl
/-- The left factor's column coordinate is the summation index. -/
theorem d1_lhs_col (j : S100000x128.Idx) (q : dot_S100000x32_S32x128_S100000x128_1_0_0_1_n_n.contr.Idx) :
    (dot_S100000x32_S32x128_S100000x128_1_0_0_1_n_n.lhsIdx j q 1).val = (q ⟨0, by decide⟩).val :=
  dot_S100000x32_S32x128_S100000x128_1_0_0_1_n_n.lhsIdx_val_of_single rfl j q
/-- The right factor's row coordinate is the summation index. -/
theorem d1_rhs_row (j : S100000x128.Idx) (q : dot_S100000x32_S32x128_S100000x128_1_0_0_1_n_n.contr.Idx) :
    (dot_S100000x32_S32x128_S100000x128_1_0_0_1_n_n.rhsIdx j q 0).val = (q ⟨0, by decide⟩).val :=
  dot_S100000x32_S32x128_S100000x128_1_0_0_1_n_n.rhsIdx_val_of_single rfl j q
/-- The right factor's column coordinate is the output's column. -/
theorem d1_rhs_col (j : S100000x128.Idx) (q : dot_S100000x32_S32x128_S100000x128_1_0_0_1_n_n.contr.Idx) :
    (dot_S100000x32_S32x128_S100000x128_1_0_0_1_n_n.rhsIdx j q 1).val = (j 1).val := by
  unfold DotDims.rhsIdx
  rw [dif_neg (show ¬(1 : Fin S32x128.rank) ∈ dot_S100000x32_S32x128_S100000x128_1_0_0_1_n_n.rhsBatch by decide), dif_pos (show (1 : Fin S32x128.rank) ∈ dot_S100000x32_S32x128_S100000x128_1_0_0_1_n_n.rhsNonContracting by decide)]
  rfl

/-- The host's product at an entry: the sum over the 32 shared coordinates of row times column. -/
theorem d1_apply (l : FVec Ideal S100000x32 .f32) (r : FVec Ideal S32x128 .f32) (j : S100000x128.Idx) :
    Host.dotGeneral (F := Ideal) dot_S100000x32_S32x128_S100000x128_1_0_0_1_n_n none l r j = ∑ k : Fin 32, l (ix2 (j 0) k) * r (ix2 k (j 1)) := by
  simp only [Host.dotGeneral]
  rw [Ideal.dotGeneral_apply, ← Equiv.sum_comp (contrEquiv1 dot_S100000x32_S32x128_S100000x128_1_0_0_1_n_n 32 rfl rfl).symm]
  refine Finset.sum_congr rfl fun k _ => ?_
  have hk := contrEquiv1_symm_val dot_S100000x32_S32x128_S100000x128_1_0_0_1_n_n 32 rfl rfl k
  have el : dot_S100000x32_S32x128_S100000x128_1_0_0_1_n_n.lhsIdx j ((contrEquiv1 dot_S100000x32_S32x128_S100000x128_1_0_0_1_n_n 32 rfl rfl).symm k) = ix2 (j 0) k := funext fun a => Fin.ext (by
    match a with
    | ⟨0, _⟩ => exact d1_lhs_row _ _
    | ⟨1, _⟩ => exact (d1_lhs_col _ _).trans hk)
  have er : dot_S100000x32_S32x128_S100000x128_1_0_0_1_n_n.rhsIdx j ((contrEquiv1 dot_S100000x32_S32x128_S100000x128_1_0_0_1_n_n 32 rfl rfl).symm k) = ix2 k (j 1) := funext fun a => Fin.ext (by
    match a with
    | ⟨0, _⟩ => exact (d1_rhs_row _ _).trans hk
    | ⟨1, _⟩ => exact d1_rhs_col _ _)
  rw [el, er]
  rfl

/-- The left factor's row coordinate is the output's row. -/
theorem d2_lhs_row (j : S100000x128.Idx) (q : dot_S100000x128_S128x128_S100000x128_1_0_0_1_n_n.contr.Idx) :
    (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left factor's column coordinate is the summation index. -/
theorem d2_lhs_col (j : S100000x128.Idx) (q : dot_S100000x128_S128x128_S100000x128_1_0_0_1_n_n.contr.Idx) :
    (dot_S100000x128_S128x128_S100000x128_1_0_0_1_n_n.lhsIdx j q 1).val = (q ⟨0, by decide⟩).val :=
  dot_S100000x128_S128x128_S100000x128_1_0_0_1_n_n.lhsIdx_val_of_single rfl j q
/-- The right factor's row coordinate is the summation index. -/
theorem d2_rhs_row (j : S100000x128.Idx) (q : dot_S100000x128_S128x128_S100000x128_1_0_0_1_n_n.contr.Idx) :
    (dot_S100000x128_S128x128_S100000x128_1_0_0_1_n_n.rhsIdx j q 0).val = (q ⟨0, by decide⟩).val :=
  dot_S100000x128_S128x128_S100000x128_1_0_0_1_n_n.rhsIdx_val_of_single rfl j q
/-- The right factor's column coordinate is the output's column. -/
theorem d2_rhs_col (j : S100000x128.Idx) (q : dot_S100000x128_S128x128_S100000x128_1_0_0_1_n_n.contr.Idx) :
    (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product at an entry: the sum over the 128 shared coordinates of row times column. -/
theorem d2_apply (l : FVec Ideal S100000x128 .f32) (r : FVec Ideal S128x128 .f32) (j : S100000x128.Idx) :
    Host.dotGeneral (F := Ideal) dot_S100000x128_S128x128_S100000x128_1_0_0_1_n_n none l r j = ∑ k : Fin 128, l (ix2 (j 0) k) * r (ix2 k (j 1)) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx j ((contrEquiv1 dot_S100000x128_S128x128_S100000x128_1_0_0_1_n_n 128 rfl rfl).symm k) = ix2 (j 0) k := funext fun a => Fin.ext (by
    match a with
    | ⟨0, _⟩ => exact d2_lhs_row _ _
    | ⟨1, _⟩ => exact (d2_lhs_col _ _).trans hk)
  have er : dot_S100000x128_S128x128_S100000x128_1_0_0_1_n_n.rhsIdx j ((contrEquiv1 dot_S100000x128_S128x128_S100000x128_1_0_0_1_n_n 128 rfl rfl).symm k) = ix2 k (j 1) := funext fun a => Fin.ext (by
    match a with
    | ⟨0, _⟩ => exact (d2_rhs_row _ _).trans hk
    | ⟨1, _⟩ => exact d2_rhs_col _ _)
  rw [el, er]
  rfl

/-- The left factor's row coordinate is the output's row. -/
theorem d3_lhs_row (j : S100000x2.Idx) (q : dot_S100000x128_S128x2_S100000x2_1_0_0_1_n_n.contr.Idx) :
    (dot_S100000x128_S128x2_S100000x2_1_0_0_1_n_n.lhsIdx j q 0).val = (j 0).val := by
  unfold DotDims.lhsIdx
  rw [dif_neg (show ¬(0 : Fin S100000x128.rank) ∈ dot_S100000x128_S128x2_S100000x2_1_0_0_1_n_n.lhsBatch by decide), dif_pos (show (0 : Fin S100000x128.rank) ∈ dot_S100000x128_S128x2_S100000x2_1_0_0_1_n_n.lhsNonContracting by decide)]
  rfl
/-- The left factor's column coordinate is the summation index. -/
theorem d3_lhs_col (j : S100000x2.Idx) (q : dot_S100000x128_S128x2_S100000x2_1_0_0_1_n_n.contr.Idx) :
    (dot_S100000x128_S128x2_S100000x2_1_0_0_1_n_n.lhsIdx j q 1).val = (q ⟨0, by decide⟩).val :=
  dot_S100000x128_S128x2_S100000x2_1_0_0_1_n_n.lhsIdx_val_of_single rfl j q
/-- The right factor's row coordinate is the summation index. -/
theorem d3_rhs_row (j : S100000x2.Idx) (q : dot_S100000x128_S128x2_S100000x2_1_0_0_1_n_n.contr.Idx) :
    (dot_S100000x128_S128x2_S100000x2_1_0_0_1_n_n.rhsIdx j q 0).val = (q ⟨0, by decide⟩).val :=
  dot_S100000x128_S128x2_S100000x2_1_0_0_1_n_n.rhsIdx_val_of_single rfl j q
/-- The right factor's column coordinate is the output's column. -/
theorem d3_rhs_col (j : S100000x2.Idx) (q : dot_S100000x128_S128x2_S100000x2_1_0_0_1_n_n.contr.Idx) :
    (dot_S100000x128_S128x2_S100000x2_1_0_0_1_n_n.rhsIdx j q 1).val = (j 1).val := by
  unfold DotDims.rhsIdx
  rw [dif_neg (show ¬(1 : Fin S128x2.rank) ∈ dot_S100000x128_S128x2_S100000x2_1_0_0_1_n_n.rhsBatch by decide), dif_pos (show (1 : Fin S128x2.rank) ∈ dot_S100000x128_S128x2_S100000x2_1_0_0_1_n_n.rhsNonContracting by decide)]
  rfl

/-- The host's product at an entry: the sum over the 128 shared coordinates of row times column. -/
theorem d3_apply (l : FVec Ideal S100000x128 .f32) (r : FVec Ideal S128x2 .f32) (j : S100000x2.Idx) :
    Host.dotGeneral (F := Ideal) dot_S100000x128_S128x2_S100000x2_1_0_0_1_n_n none l r j = ∑ k : Fin 128, l (ix2 (j 0) k) * r (ix2 k (j 1)) := by
  simp only [Host.dotGeneral]
  rw [Ideal.dotGeneral_apply, ← Equiv.sum_comp (contrEquiv1 dot_S100000x128_S128x2_S100000x2_1_0_0_1_n_n 128 rfl rfl).symm]
  refine Finset.sum_congr rfl fun k _ => ?_
  have hk := contrEquiv1_symm_val dot_S100000x128_S128x2_S100000x2_1_0_0_1_n_n 128 rfl rfl k
  have el : dot_S100000x128_S128x2_S100000x2_1_0_0_1_n_n.lhsIdx j ((contrEquiv1 dot_S100000x128_S128x2_S100000x2_1_0_0_1_n_n 128 rfl rfl).symm k) = ix2 (j 0) k := funext fun a => Fin.ext (by
    match a with
    | ⟨0, _⟩ => exact d3_lhs_row _ _
    | ⟨1, _⟩ => exact (d3_lhs_col _ _).trans hk)
  have er : dot_S100000x128_S128x2_S100000x2_1_0_0_1_n_n.rhsIdx j ((contrEquiv1 dot_S100000x128_S128x2_S100000x2_1_0_0_1_n_n 128 rfl rfl).symm k) = ix2 k (j 1) := funext fun a => Fin.ext (by
    match a with
    | ⟨0, _⟩ => exact (d3_rhs_row _ _).trans hk
    | ⟨1, _⟩ => exact d3_rhs_col _ _)
  rw [el, er]
  rfl

/-- The first layer's host product is `lin1`. -/
theorem dense1_eq (x : (⟨S100000x32, .f32⟩ : BufTy).Contents (Elt Ideal)) (w : (⟨S32x128, .f32⟩ : BufTy).Contents (Elt Ideal)) :
    dense1 (F := Ideal) x w = Cert.Gcn.lin1 x w := by
  funext j
  unfold dense1 Cert.Gcn.lin1
  exact d1_apply x w j

/-- The second layer's host product is `lin2`. -/
theorem dense2_eq (h : (⟨S100000x128, .f32⟩ : BufTy).Contents (Elt Ideal)) (w : (⟨S128x128, .f32⟩ : BufTy).Contents (Elt Ideal)) :
    dense2 (F := Ideal) h w = Cert.Gcn.lin2 h w := by
  funext j
  unfold dense2 Cert.Gcn.lin2
  exact d2_apply h w j

/-- The host's bias-and-rectifier is `biasRelu`: the doubly broadcast bias read at (r, c) is `b[c]`, the broadcast
    zero is zero. -/
theorem act_eq (a : (⟨S100000x128, .f32⟩ : BufTy).Contents (Elt Ideal)) (b : (⟨S128, .f32⟩ : BufTy).Contents (Elt Ideal)) :
    act (F := Ideal) a b = Cert.Gcn.biasRelu a b := by
  funext j
  obtain ⟨p, q, rfl⟩ : ∃ (p : Fin 100000) (q : Fin 128), j = ix2 p q := ⟨j 0, j 1, eq_ix2 j⟩
  unfold act Cert.Gcn.biasRelu
  rw [maximumf_apply, addf_apply]
  rw [broadcastInDim_apply ![0, 1] bcast_S1x128_S100000x128_0_1 (broadcastInDim S1x128 ![1] bcast_S128_S1x128_1 b) (ix2 p q) (ix2 (0 : Fin 1) q)
    (fun a => by match a with | ⟨0, _⟩ => rfl | ⟨1, _⟩ => rfl)]
  rw [broadcastInDim_apply ![1] bcast_S128_S1x128_1 b (ix2 (0 : Fin 1) q) (ix1 q) (fun a => by match a with | ⟨0, _⟩ => rfl)]
  rw [broadcastInDim_apply ![] bcast_S_S100000x128 (constant (F := Ideal) S_ .f32 0x00000000#32) (ix2 p q) ix0 (fun a => a.elim0)]
  rfl

/-- The host's classifier is `head`. -/
theorem cls_eq (e : (⟨S100000x128, .f32⟩ : BufTy).Contents (Elt Ideal)) (w : (⟨S128x2, .f32⟩ : BufTy).Contents (Elt Ideal)) (b : (⟨S2, .f32⟩ : BufTy).Contents (Elt Ideal)) :
    cls (F := Ideal) e w b = Cert.Gcn.head e w b := by
  funext j
  obtain ⟨p, q, rfl⟩ : ∃ (p : Fin 100000) (q : Fin 2), j = ix2 p q := ⟨j 0, j 1, eq_ix2 j⟩
  unfold cls Cert.Gcn.head
  rw [addf_apply, d3_apply]
  rw [broadcastInDim_apply ![0, 1] bcast_S1x2_S100000x2_0_1 (broadcastInDim S1x2 ![1] bcast_S2_S1x2_1 b) (ix2 p q) (ix2 (0 : Fin 1) q)
    (fun a => by match a with | ⟨0, _⟩ => rfl | ⟨1, _⟩ => rfl)]
  rw [broadcastInDim_apply ![1] bcast_S2_S1x2_1 b (ix2 (0 : Fin 1) q) (ix1 q) (fun a => by match a with | ⟨0, _⟩ => rfl)]

end Cert.ReferenceIdeal.Flow

end
-- ==== Proof.lean ====
/-
  A two-layer graph convolution with a linear classifier head: the tiled kernels' program and the plain
  reference compute the same logits and embeddings over the extended reals.

  Both programs build, from the edge list, the message sources, destinations and the symmetric degree
  normalisation, with the same host operations. The reference then alternates dense host stages with rounds of
  message passing; the kernel's program runs the dense stages as three row-tiled regions — `x · W1`,
  `relu (a + b1) · W2`, and `relu (a + b2)` with `· Wc + bc` — around the same rounds of message passing.

  * Each region's result array is one whole-array function of its input arrays (Proof/Stage1–3): a tile is
    2000 consecutive rows, every stage reads only its own row of the tiled operand, a product into a zero
    accumulator is the finite sum Σ_k l[r, k] · r[k, c], and narrowing to bf16 is the identity at the extended reals.
  * The host's general product is the same finite sum, its doubly broadcast bias read at (r, c) is b[c], and its
    maximum with a broadcast zero is `max · 0` (Proof/RefFlow): the reference's dense stages are the same functions.
  * Message passing and the normalisation are never opened: the two programs apply the same functions, so equal
    inputs give equal outputs (`Bridge` below: the two spellings of those functions are one).

  No law of arithmetic beyond re-indexing a finite sum is used, so finiteness of the inputs is never needed.
  `preserves` is trivial: the idealization rewrote nothing.
-/
import proofs.«110515_j61572651155681_1_alg».proof.Defs
import proofs.«110515_j61572651155681_1_alg».proof.Proof.Gen.Kernel
import proofs.«110515_j61572651155681_1_alg».proof.Proof.Gen.Kernel.Frame
import proofs.«110515_j61572651155681_1_alg».proof.Proof.Gen.KernelIdeal
import proofs.«110515_j61572651155681_1_alg».proof.Proof.Gen.KernelIdeal.Frame
import proofs.«110515_j61572651155681_1_alg».proof.Proof.Gen.ReferenceIdeal
import proofs.«110515_j61572651155681_1_alg».proof.Proof.Gen.Pre_finite_inputs
import proofs.«110515_j61572651155681_1_alg».proof.Proof.KernelValue
import proofs.«110515_j61572651155681_1_alg».proof.Proof.RefFlow
import Idealize.ShloMosaic.Adequacy
import Idealize.ShloMosaic.Init

set_option maxRecDepth 16384

noncomputable section

open Idealize.ShloMosaic Idealize.ShloMosaic.TcCoe Idealize.SL.Sem

/-! ## The two spellings of the shared host functions are one -/

namespace Cert.Proof.Bridge

section AnyFamily

variable {F : FTy → Type} [FloatOps F]

/-- The sources of the messages, as either program spells them. -/
theorem srcOf_eq (e : (⟨Cert.ReferenceIdeal.S2x1600000, .i32⟩ : BufTy).Contents (Elt F)) :
    Cert.ReferenceIdeal.Flow.srcOf (F := F) e = Cert.KernelIdeal.Flow.srcOf (F := F) e := rfl

/-- The destinations of the messages, as either program spells them. -/
theorem dstOf_eq (e : (⟨Cert.ReferenceIdeal.S2x1600000, .i32⟩ : BufTy).Contents (Elt F)) :
    Cert.ReferenceIdeal.Flow.dstOf (F := F) e = Cert.KernelIdeal.Flow.dstOf (F := F) e := rfl

/-- The normalisation of the messages, as either program spells it. -/
theorem nrmOf_eq (s d : (⟨Cert.ReferenceIdeal.S1700000, .i32⟩ : BufTy).Contents (Elt F)) :
    Cert.ReferenceIdeal.Flow.nrmOf (F := F) s d = Cert.KernelIdeal.Flow.nrmOf (F := F) s d := rfl

/-- One round of message passing, as either program spells it. -/
theorem agg_eq (h : (⟨Cert.ReferenceIdeal.S100000x128, .f32⟩ : BufTy).Contents (Elt F))
    (s d : (⟨Cert.ReferenceIdeal.S1700000, .i32⟩ : BufTy).Contents (Elt F)) (n : (⟨Cert.ReferenceIdeal.S1700000, .f32⟩ : BufTy).Contents (Elt F)) :
    Cert.ReferenceIdeal.Flow.agg (F := F) h s d n = Cert.KernelIdeal.Flow.agg (F := F) h s d n := rfl

end AnyFamily

/-- The reference's embeddings and the kernel's are one function of the arguments: the dense stages by
    `RefFlow`, the shared host functions by the lemmas above. -/
theorem emb_eq (x : (⟨Cert.ReferenceIdeal.S100000x32, .f32⟩ : BufTy).Contents (Elt Ideal)) (e : (⟨Cert.ReferenceIdeal.S2x1600000, .i32⟩ : BufTy).Contents (Elt Ideal))
    (w1 : (⟨Cert.ReferenceIdeal.S32x128, .f32⟩ : BufTy).Contents (Elt Ideal)) (b1 : (⟨Cert.ReferenceIdeal.S128, .f32⟩ : BufTy).Contents (Elt Ideal))
    (w2 : (⟨Cert.ReferenceIdeal.S128x128, .f32⟩ : BufTy).Contents (Elt Ideal)) (b2 : (⟨Cert.ReferenceIdeal.S128, .f32⟩ : BufTy).Contents (Elt Ideal)) :
    Cert.ReferenceIdeal.Flow.embOf (F := Ideal) x e w1 b1 w2 b2 = Cert.KernelIdeal.Whole.embOf x e w1 b1 w2 b2 := by
  unfold Cert.ReferenceIdeal.Flow.embOf Cert.KernelIdeal.Whole.embOf
  rw [Cert.ReferenceIdeal.Flow.dense1_eq, Cert.ReferenceIdeal.Flow.act_eq, Cert.ReferenceIdeal.Flow.dense2_eq, Cert.ReferenceIdeal.Flow.act_eq]
  rw [agg_eq, agg_eq, nrmOf_eq, srcOf_eq, dstOf_eq]

/-- The same for the logits: the classifier on equal embeddings. -/
theorem logits_eq (x : (⟨Cert.ReferenceIdeal.S100000x32, .f32⟩ : BufTy).Contents (Elt Ideal)) (e : (⟨Cert.ReferenceIdeal.S2x1600000, .i32⟩ : BufTy).Contents (Elt Ideal))
    (w1 : (⟨Cert.ReferenceIdeal.S32x128, .f32⟩ : BufTy).Contents (Elt Ideal)) (b1 : (⟨Cert.ReferenceIdeal.S128, .f32⟩ : BufTy).Contents (Elt Ideal))
    (w2 : (⟨Cert.ReferenceIdeal.S128x128, .f32⟩ : BufTy).Contents (Elt Ideal)) (b2 : (⟨Cert.ReferenceIdeal.S128, .f32⟩ : BufTy).Contents (Elt Ideal))
    (wc : (⟨Cert.ReferenceIdeal.S128x2, .f32⟩ : BufTy).Contents (Elt Ideal)) (bc : (⟨Cert.ReferenceIdeal.S2, .f32⟩ : BufTy).Contents (Elt Ideal)) :
    Cert.ReferenceIdeal.Flow.cls (F := Ideal) (Cert.ReferenceIdeal.Flow.embOf (F := Ideal) x e w1 b1 w2 b2) wc bc
      = Cert.KernelIdeal.Whole.logitsOf x e w1 b1 w2 b2 wc bc := by
  unfold Cert.KernelIdeal.Whole.logitsOf
  rw [Cert.ReferenceIdeal.Flow.cls_eq, emb_eq]

end Cert.Proof.Bridge

/-! ## The claims -/

namespace Cert.Proof

/-- The reference has no kernel: its frame is its run with the results dropped. -/
theorem frame_ref : Cert.frame_ReferenceIdeal := fun m ρ _ =>
  (θ_run Cert.ReferenceIdeal.defs _ _).mono (fun _ h c => (h c).2.2) (Cert.ReferenceIdeal.RunP.run (F := Ideal) m ρ)

/-- Both idealized programs run, from memories agreeing on the arguments, to the same logits and embeddings:
    `logitsOf` and `embOf` of the arguments. -/
theorem algebraic : Cert.algebraic_KernelIdeal_ReferenceIdeal := by
  intro m ρ m' ρ' _ hagree
  refine ⟨fun c => Cert.KernelIdeal.Whole.logitsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Whole.embOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ?_) (Cert.ReferenceIdeal.RunP.run (F := Ideal) m' ρ')
  obtain ⟨h0, h1, h2, h3, h4, h5, h6, h7⟩ := hagree c
  refine ⟨(h c).1.trans ?_, (h c).2.1.trans ?_, (h c).2.2⟩
  · rw [Cert.ReferenceIdeal.Flow.res_logits, h0, h1, h2, h3, h4, h5, h6, h7]
    exact Cert.Proof.Bridge.logits_eq _ _ _ _ _ _ _ _
  · rw [Cert.ReferenceIdeal.Flow.res_emb, h0, h1, h2, h3, h4, h5]
    exact Cert.Proof.Bridge.emb_eq _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
